-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S50x2048 : Shape := ⟨2, ![50, 2048]⟩
abbrev S50 : Shape := ⟨1, ![50]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S50x2048 : S_.BroadcastsInDim S50x2048 (![] : Fin 0 → Fin S50x2048.rank)
  reducesTo_S50x2048_S_d0_1 : S50x2048.ReducesTo [0, 1] S_
  bcast_S_S50 : S_.BroadcastsInDim S50 (![] : Fin 0 → Fin S50.rank)
  reducesTo_S50_S_d0 : S50.ReducesTo [0] S_

variable [Facts]

def fn {F : FTy → Type} [FloatOps F] (main_arg0 : FVec F S4x8192x2048 .f32) (main_arg1 : FVec F S50x2048 .f32) (main_arg2 : FVec F S50 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S50x2048 .f32 := Host.absf main_arg1
  let main_cst_0 : FVec F S_ .f32 := constant S_ .f32 0x7F800000#32
  let main_v5 : FVec F S50x2048 .f32 := broadcastInDim S50x2048 ![] bcast_S_S50x2048 main_cst_0
  let main_v6 : IVec S50x2048 1 := cmpf .olt main_v4 main_v5
  let main_c_1 : IVec S_ 1 := constantI S_ 1 1#1
  let main_v7 : IVec S_ 1 := (fun x v => Host.reduce IntOp.andi x v reducesTo_S50x2048_S_d0_1 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  main_v13
-- ==== Kernel.lean ====
abbrev S4x8192x2048 : Shape := ⟨3, ![4, 8192, 2048]⟩
abbrev S50x2048 : Shape := ⟨2, ![50, 2048]⟩
abbrev S50 : Shape := ⟨1, ![50]⟩
abbrev S1x50 : Shape := ⟨2, ![1, 50]⟩
abbrev S50x4x8192 : Shape := ⟨3, ![50, 4, 8192]⟩
abbrev S4x512x2048 : Shape := ⟨3, ![4, 512, 2048]⟩
abbrev S50x4x512 : Shape := ⟨3, ![50, 4, 512]⟩
abbrev S2048x2048 : Shape := ⟨2, ![2048, 2048]⟩
abbrev S50x1 : Shape := ⟨2, ![50, 1]⟩
abbrev S4x8192x50 : Shape := ⟨3, ![4, 8192, 50]⟩

abbrev nBuf : Space → Nat
  | .hbm => 6
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S50x2048, .f32⟩
  | .hbm, ⟨2, _⟩ => ⟨S50, .f32⟩
  | .hbm, ⟨3, _⟩ => ⟨S1x50, .f32⟩
  | .hbm, ⟨4, _⟩ => ⟨S50x4x8192, .f32⟩
  | .hbm, ⟨5, _⟩ => ⟨S4x8192x50, .f32⟩
  | .local _ .vmem, ⟨0, _⟩ => ⟨S4x512x2048, .f32⟩
  | .local _ .vmem, ⟨1, _⟩ => ⟨S4x512x2048, .f32⟩
  | .local _ .vmem, ⟨2, _⟩ => ⟨S50x2048, .f32⟩
  | .local _ .vmem, ⟨3, _⟩ => ⟨S1x50, .f32⟩
  | .local _ .vmem, ⟨4, _⟩ => ⟨S50x4x512, .f32⟩
  | .local _ .vmem, ⟨5, _⟩ => ⟨S50x4x512, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S50x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S50_S1x50 : S50.ShapeCasts S1x50
  inb_S4x512x2048_S4x512x2048_0_0_0 : ∀ a, (![0, 0, 0] : Fin 3 → Nat) a + S4x512x2048.size a ≤ S4x512x2048.size a
  h_S4x512x2048 : 0 < S4x512x2048.numel
  shapeCasts_S4x512x2048_S2048x2048 : S4x512x2048.ShapeCasts S2048x2048
  inb_S50x2048_S50x2048_0_0 : ∀ a, (![0, 0] : Fin 2 → Nat) a + S50x2048.size a ≤ S50x2048.size a
  h_S50x2048 : 0 < S50x2048.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  transposes_S1x50_p1_0_S50x1 : S1x50.Transposes [1, 0] S50x1
  broadcasts_S50x1_S50x2048 : S50x1.Broadcasts S50x2048
  shapeCasts_S50x2048_S50x4x512 : S50x2048.ShapeCasts S50x4x512
  inb_S50x4x512_S50x4x512_0_0_0 : ∀ a, (![0, 0, 0] : Fin 3 → Nat) a + S50x4x512.size a ≤ S50x4x512.size a
  h_S50x4x512 : 0 < S50x4x512.numel
  transposes_S50x4x8192_S4x8192x50_1_2_0 : S50x4x8192.Transposes [1, 2, 0] S4x8192x50
  dot_S50x2048_S2048x2048_S50x2048_1_1_0_0_n_n_wf : DotDims.WF S50x2048 S2048x2048 S50x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x2048.size a ≤ S4x8192x2048.size a
  hwx0_0 : ∀ i : grid0.Coords, EltTy.bits .f32 = 32 ∨ (Rect.block (s := S4x8192x2048) S4x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x2048.size a ≤ S50x2048.size a
  hwx0_1 : ∀ i : grid0.Coords, EltTy.bits .f32 = 32 ∨ (Rect.block (s := S50x2048) S50x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S50x4x512.size a ≤ S50x4x8192.size a
  hwx0_3 : ∀ i : grid0.Coords, EltTy.bits .f32 = 32 ∨ (Rect.block (s := S50x4x8192) S50x4x512.size (cc0_transform_3 i) (hinb0_3 i)).WholeWords (EltTy.packing .f32)

variable [Facts₀]

def dot_S50x2048_S2048x2048_S50x2048_1_1_0_0_n_n : DotDims S50x2048 S2048x2048 S50x2048 where
  lhsContracting := [1]
  rhsContracting := [1]
  lhsNonContracting := [0]
  rhsNonContracting := [0]
  lhsBatch := []
  rhsBatch := []
  wf := dot_S50x2048_S2048x2048_S50x2048_1_1_0_0_n_n_wf

abbrev win0_0 : Pipeline.Window sig grid0 :=
  Pipeline.Window.ofSpec (Memref.whole main_arg0) S4x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S50x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S50x4x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S50x2048 : Shape := ⟨2, ![50, 2048]⟩
abbrev S50 : Shape := ⟨1, ![50]⟩
abbrev S32768x2048 : Shape := ⟨2, ![32768, 2048]⟩
abbrev S2048x50 : Shape := ⟨2, ![2048, 50]⟩
abbrev S32768x50 : Shape := ⟨2, ![32768, 50]⟩
abbrev S1x50 : Shape := ⟨2, ![1, 50]⟩
abbrev S4x8192x50 : Shape := ⟨3, ![4, 8192, 50]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S50x2048, .f32⟩
  | .hbm, ⟨2, _⟩ => ⟨S50, .f32⟩
  | .hbm, ⟨3, _⟩ => ⟨S32768x2048, .f32⟩
  | .hbm, ⟨4, _⟩ => ⟨S2048x50, .f32⟩
  | .hbm, ⟨5, _⟩ => ⟨S32768x50, .f32⟩
  | .hbm, ⟨6, _⟩ => ⟨S1x50, .f32⟩
  | .hbm, ⟨7, _⟩ => ⟨S32768x50, .f32⟩
  | .hbm, ⟨8, _⟩ => ⟨S32768x50, .f32⟩
  | .hbm, ⟨9, _⟩ => ⟨S4x8192x50, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S4x8192x2048_S32768x2048 : S4x8192x2048.ShapeCasts S32768x2048
  transposes_S50x2048_S2048x50_1_0 : S50x2048.Transposes [1, 0] S2048x50
  bcast_S50_S1x50_1 : S50.BroadcastsInDim S1x50 (![1] : Fin 1 → Fin S1x50.rank)
  bcast_S1x50_S32768x50_0_1 : S1x50.BroadcastsInDim S32768x50 (![0, 1] : Fin 2 → Fin S32768x50.rank)
  shapeCasts_S32768x50_S4x8192x50 : S32768x50.ShapeCasts S4x8192x50
  dot_S32768x2048_S2048x50_S32768x50_1_0_0_1_n_n_wf : DotDims.WF S32768x2048 S2048x50 S32768x50 [1] [0] [0] [1] [] []

variable [Facts₀]

def dot_S32768x2048_S2048x50_S32768x50_1_0_0_1_n_n : DotDims S32768x2048 S2048x50 S32768x50 where
  lhsContracting := [1]
  rhsContracting := [0]
  lhsNonContracting := [0]
  rhsNonContracting := [1]
  lhsBatch := []
  rhsBatch := []
  wf := dot_S32768x2048_S2048x50_S32768x50_1_0_0_1_n_n_wf

class Facts : Prop extends Facts₀ where

variable [Facts]
-- ==== Proof.Logits.lean ====
/-
  The function both programs compute: a linear layer with bias applied to every position.
  For an activation x[p, q, ·] (4 × 8192 positions, 2048 features), a weight matrix w[l, ·] (50 rows) and a
  bias b[l], the logit at position (p, q) and row l is   Σ_k x[p, q, k] · w[l, k]  +  b[l].
  Everything is over the extended reals; only commutativity of the product is needed to pass between
  the two orders of the factors, so no finiteness of the inputs is used anywhere.
-/
import Idealize.ShloMosaic.PureOps.Ideal
import Idealize.ShloMosaic.Lib.ValueIdx

noncomputable section

namespace Cert.Linear

open Idealize.ShloMosaic Idealize.ShloMosaic.ValueIdx

/-- One logit: the inner product of the feature vector at position (p, q) with row l of the weights, plus the bias of row l. -/
def logit (x : (⟨3, ![4, 8192, 2048]⟩ : Shape).Idx → EReal) (w : (⟨2, ![50, 2048]⟩ : Shape).Idx → EReal)
    (b : (⟨1, ![50]⟩ : Shape).Idx → EReal) (p : Fin 4) (q : Fin 8192) (l : Fin 50) : EReal :=
  (∑ k : Fin 2048, x (ix3 p q k) * w (ix2 l k)) + b (ix1 l)

/-- The whole [4, 8192, 50] array of logits. -/
def logits (x : (⟨3, ![4, 8192, 2048]⟩ : Shape).Idx → EReal) (w : (⟨2, ![50, 2048]⟩ : Shape).Idx → EReal)
    (b : (⟨1, ![50]⟩ : Shape).Idx → EReal) : (⟨3, ![4, 8192, 50]⟩ : Shape).Idx → EReal :=
  fun i => logit x w b (i 0) (i 1) (i 2)

theorem logits_apply (x : (⟨3, ![4, 8192, 2048]⟩ : Shape).Idx → EReal) (w : (⟨2, ![50, 2048]⟩ : Shape).Idx → EReal)
    (b : (⟨1, ![50]⟩ : Shape).Idx → EReal) (p : Fin 4) (q : Fin 8192) (l : Fin 50) :
    logits x w b (ix3 p q l) = logit x w b p q l := rfl

/-- The same logit with the factors in the other order (weights first), as a matrix unit fed the weights on the
    left produces it. -/
theorem logit_comm (x : (⟨3, ![4, 8192, 2048]⟩ : Shape).Idx → EReal) (w : (⟨2, ![50, 2048]⟩ : Shape).Idx → EReal)
    (b : (⟨1, ![50]⟩ : Shape).Idx → EReal) (p : Fin 4) (q : Fin 8192) (l : Fin 50) :
    (∑ k : Fin 2048, w (ix2 l k) * x (ix3 p q k)) + b (ix1 l) = logit x w b p q l := by
  unfold logit
  exact congrArg (· + b (ix1 l)) (Finset.sum_congr rfl fun k _ => mul_comm _ _)

end Cert.Linear

end
-- ==== Proof.RefLogits.lean ====
/-
  The reference program computes the logits.
  It flattens the positions (p, q) to the row n = p·8192 + q, multiplies the [32768, 2048] matrix by the
  transposed weights, adds the bias broadcast over the rows, and unflattens. Read at the index (p, q, l):
  row n, column l of the product is Σ_k x[p, q, k] · w[l, k], because the row-major position n·2048 + k of the
  flattened activation is the position of (p, q, k) in the original one.
-/
import proofs.«136106_g46248207843626_cont_8to1_c_545_13_alg».proof.Proof.Gen.ReferenceIdeal.Read
import proofs.«136106_g46248207843626_cont_8to1_c_545_13_alg».proof.Proof.Logits

noncomputable section

namespace Cert.Linear.Ref

open Cert.ReferenceIdeal Cert.ReferenceIdeal.Read Idealize.ShloMosaic Idealize.ShloMosaic.ValueIdx Cert.Linear

/-- Unflattening the result's index (p, q, l) gives row p·8192 + q and column l; the left operand of the product at
    that row and contraction index k, read through the flattening of the activation, is the entry (p, q, k). -/
theorem lhs_index (p : Fin 4) (q : Fin 8192) (l : Fin 50) (k : Fin 2048) :
    idx_main_v0 (lidx_main_v2 (idx_main_v6 (ix3 p q l)) k) = ix3 p q k := by
  have hp := p.isLt; have hq := q.isLt; have hl := l.isLt; have hk := k.isLt
  funext a; apply Fin.ext
  match a with
  | ⟨0, _⟩ => show ((((p.val * 8192 + q.val) * 50 + l.val) / 50) * 2048 + k.val) / 16777216 = p.val; omega
  | ⟨1, _⟩ => show ((((p.val * 8192 + q.val) * 50 + l.val) / 50) * 2048 + k.val) / 2048 % 8192 = q.val; omega
  | ⟨2, _⟩ => show ((((p.val * 8192 + q.val) * 50 + l.val) / 50) * 2048 + k.val) % 2048 = k.val; omega

/-- The right operand at contraction index k and column l, read through the transposition of the weights, is w[l, k]. -/
theorem rhs_index (p : Fin 4) (q : Fin 8192) (l : Fin 50) (k : Fin 2048) :
    idx_main_v1 (ridx_main_v2 (idx_main_v6 (ix3 p q l)) k) = ix2 l k := by
  have hp := p.isLt; have hq := q.isLt; have hl := l.isLt
  funext a; apply Fin.ext
  match a with
  | ⟨0, _⟩ => show ((p.val * 8192 + q.val) * 50 + l.val) % 50 = l.val; omega
  | ⟨1, _⟩ => rfl

/-- The bias broadcast over the rows, read at column l, is b[l]. -/
theorem bias_index (p : Fin 4) (q : Fin 8192) (l : Fin 50) :
    idx_main_v3 (idx_main_v4 (idx_main_v6 (ix3 p q l))) = ix1 l := by
  have hp := p.isLt; have hq := q.isLt; have hl := l.isLt
  funext a; apply Fin.ext
  match a with
  | ⟨0, _⟩ => show ((p.val * 8192 + q.val) * 50 + l.val) % 50 = l.val; omega

/-- The reference's result, as a function of its three arguments, is the array of logits. -/
theorem result_eq (x : (⟨S4x8192x2048, .f32⟩ : BufTy).Contents (Elt Ideal)) (w : (⟨S50x2048, .f32⟩ : BufTy).Contents (Elt Ideal))
    (b : (⟨S50, .f32⟩ : BufTy).Contents (Elt Ideal)) :
    val_main_v6 (F := Ideal) x w b = logits x w b := by
  funext i
  obtain ⟨p, q, l, rfl⟩ : ∃ (p : Fin 4) (q : Fin 8192) (l : Fin 50), i = ix3 p q l := ⟨i 0, i 1, i 2, eq_ix3 i⟩
  rw [val_main_v6_apply, val_main_v5_apply, val_main_v2_apply, val_main_v4_apply, val_main_v3_apply, logits_apply]
  simp only [val_main_v0_apply, val_main_v1_apply, lhs_index, rhs_index, bias_index]
  rfl

end Cert.Linear.Ref

end
-- ==== Proof.BodyEntry.lean ====
/-
  What one run of the kernel body stores, read entry by entry.
  The body holds a block of 512 consecutive positions q for all four p: x0[p, s, ·]. It flattens it to the
  [2048, 2048] matrix with row r = p·512 + s, contracts the weights w[l, ·] against every row
  (a matrix product with the weights on the left, into a zero accumulator), adds the bias b[l] to every
  column of row l, and unflattens the 2048 columns to (p, s). So the entry (l, p, s) of the stored block is
      Σ_k w[l, k] · x0[p, s, k]  +  b[l].
-/
import proofs.«136106_g46248207843626_cont_8to1_c_545_13_alg».proof.Proof.Gen.KernelIdeal.Skeleton
import Idealize.ShloMosaic.Lib.Pipeline.Value
import Idealize.ShloMosaic.Lib.ValueIdx
import Idealize.ShloMosaic.PureOps.Ideal.Laws

noncomputable section

namespace Cert.Linear.Body

open Cert.KernelIdeal Cert.KernelIdeal.Gen Idealize.ShloMosaic Idealize.ShloMosaic.ValueIdx

/-! ## The matrix product's operand indices, axis by axis -/

/-- The left operand's row is the result's row. -/
theorem lhs_axis0 (i : S50x2048.Idx) (q : dot_S50x2048_S2048x2048_S50x2048_1_1_0_0_n_n.contr.Idx) :
    (dot_S50x2048_S2048x2048_S50x2048_1_1_0_0_n_n.lhsIdx i q 0).val = (i 0).val := by
  unfold DotDims.lhsIdx
  rw [dif_neg (show ¬(0 : Fin S50x2048.rank) ∈ dot_S50x2048_S2048x2048_S50x2048_1_1_0_0_n_n.lhsBatch by decide), dif_pos (show (0 : Fin S50x2048.rank) ∈ dot_S50x2048_S2048x2048_S50x2048_1_1_0_0_n_n.lhsNonContracting by decide)]
  rfl
/-- The left operand's column is the contraction index. -/
theorem lhs_axis1 (i : S50x2048.Idx) (q : dot_S50x2048_S2048x2048_S50x2048_1_1_0_0_n_n.contr.Idx) :
    (dot_S50x2048_S2048x2048_S50x2048_1_1_0_0_n_n.lhsIdx i q 1).val = (q ⟨0, by decide⟩).val :=
  dot_S50x2048_S2048x2048_S50x2048_1_1_0_0_n_n.lhsIdx_val_of_single rfl i q
/-- The right operand's row is the result's column: the right operand is contracted along its second axis. -/
theorem rhs_axis0 (i : S50x2048.Idx) (q : dot_S50x2048_S2048x2048_S50x2048_1_1_0_0_n_n.contr.Idx) :
    (dot_S50x2048_S2048x2048_S50x2048_1_1_0_0_n_n.rhsIdx i q 0).val = (i 1).val := by
  unfold DotDims.rhsIdx
  rw [dif_neg (show ¬(0 : Fin S2048x2048.rank) ∈ dot_S50x2048_S2048x2048_S50x2048_1_1_0_0_n_n.rhsBatch by decide), dif_pos (show (0 : Fin S2048x2048.rank) ∈ dot_S50x2048_S2048x2048_S50x2048_1_1_0_0_n_n.rhsNonContracting by decide)]
  rfl
/-- The right operand's column is the contraction index. -/
theorem rhs_axis1 (i : S50x2048.Idx) (q : dot_S50x2048_S2048x2048_S50x2048_1_1_0_0_n_n.contr.Idx) :
    (dot_S50x2048_S2048x2048_S50x2048_1_1_0_0_n_n.rhsIdx i q 1).val = (q ⟨0, by decide⟩).val :=
  dot_S50x2048_S2048x2048_S50x2048_1_1_0_0_n_n.rhsIdx_val_of_single rfl i q

/-- The product into a zero accumulator, at row l and column r: the inner product of row l of the left operand with
    row r of the right one. -/
theorem product_apply (wv : FVec Ideal S50x2048 .f32) (xm : FVec Ideal S2048x2048 .f32) (l : Fin 50) (r : Fin 2048) :
    matmul dot_S50x2048_S2048x2048_S50x2048_1_1_0_0_n_n none wv xm (constant S50x2048 .f32 0x00000000#32) (ix2 l r)
      = ∑ k : Fin 2048, wv (ix2 l k) * xm (ix2 r k) := by
  show FloatOps.matmul dot_S50x2048_S2048x2048_S50x2048_1_1_0_0_n_n none wv xm (constant S50x2048 .f32 0x00000000#32) (ix2 l r) = _
  rw [Ideal.matmul_constant_zero_apply, ← Equiv.sum_comp (contrEquiv1 dot_S50x2048_S2048x2048_S50x2048_1_1_0_0_n_n 2048 rfl rfl).symm]
  refine Finset.sum_congr rfl fun k _ => ?_
  have hk := contrEquiv1_symm_val dot_S50x2048_S2048x2048_S50x2048_1_1_0_0_n_n 2048 rfl rfl k
  have el : dot_S50x2048_S2048x2048_S50x2048_1_1_0_0_n_n.lhsIdx (ix2 l r) ((contrEquiv1 dot_S50x2048_S2048x2048_S50x2048_1_1_0_0_n_n 2048 rfl rfl).symm k) = ix2 l k := funext fun a => Fin.ext (by
    match a with
    | ⟨0, _⟩ => exact lhs_axis0 _ _
    | ⟨1, _⟩ => exact (lhs_axis1 _ _).trans hk)
  have er : dot_S50x2048_S2048x2048_S50x2048_1_1_0_0_n_n.rhsIdx (ix2 l r) ((contrEquiv1 dot_S50x2048_S2048x2048_S50x2048_1_1_0_0_n_n 2048 rfl rfl).symm k) = ix2 r k := funext fun a => Fin.ext (by
    match a with
    | ⟨0, _⟩ => exact rhs_axis0 _ _
    | ⟨1, _⟩ => exact (rhs_axis1 _ _).trans hk)
  rw [el, er]

/-! ## The layout operations around it -/

/-- Flattening the block's first two axes: row p·512 + s of the matrix is the block's row (p, s). -/
theorem flatten_apply (x0 : Vec Ideal S4x512x2048 .f32) (p : Fin 4) (s : Fin 512) (k : Fin 2048) (r : Fin 2048) (hr : r.val = p.val * 512 + s.val) :
    shapeCast S2048x2048 x0 shapeCasts_S4x512x2048_S2048x2048 (ix2 r k) = x0 (ix3 p s k) :=
  shapeCast_apply x0 shapeCasts_S4x512x2048_S2048x2048 (ix2 r k) (ix3 p s k)
    (by rewrite [Shape.rowMajor_val_three, Shape.rowMajor_val_two]; show (p.val * 512 + s.val) * 2048 + k.val = r.val * 2048 + k.val; rw [hr])

/-- The bias row [1, 50], turned into a column and repeated along the 2048 columns: entry (l, r) is b[0, l]. -/
theorem bias_apply (x2 : Vec Ideal S1x50 .f32) (l : Fin 50) (r : Fin 2048) :
    broadcastTo S50x2048 (transpose S50x1 [1, 0] (shapeCast S1x50 x2 shapeCasts_S1x50_S1x50) transposes_S1x50_p1_0_S50x1) broadcasts_S50x1_S50x2048 (ix2 l r)
      = x2 (ix2 0 l) := by
  rw [shapeCast_self]
  refine (broadcastTo_apply _ broadcasts_S50x1_S50x2048 (ix2 l r) (ix2 l 0) (fun a => ?_)).trans ?_
  · match a with
    | ⟨0, _⟩ => show l.val = if (50 : Nat) = 1 then 0 else l.val; rw [if_neg (by decide)]
    | ⟨1, _⟩ => show 0 = if (1 : Nat) = 1 then 0 else r.val; rw [if_pos rfl]
  · exact transpose_apply [1, 0] x2 transposes_S1x50_p1_0_S50x1 (ix2 l 0) (ix2 0 l) (fun b => match b with
      | ⟨0, _⟩ => rfl
      | ⟨1, _⟩ => rfl)

/-! ## The stored block -/

/-- Entry (l, p, s) of what the body stores: the inner product of weight row l with the block's row (p, s), plus the bias of l. -/
theorem stored_apply (x0 : Vec Ideal S4x512x2048 .f32) (x1 : Vec Ideal S50x2048 .f32) (x2 : Vec Ideal S1x50 .f32)
    (l : Fin 50) (p : Fin 4) (s : Fin 512) :
    k0_pay1 x0 x1 x2 (ix3 l p s) = (∑ k : Fin 2048, x1 (ix2 l k) * x0 (ix3 p s k)) + x2 (ix2 0 l) := by
  have hp := p.isLt; have hs := s.isLt
  unfold k0_pay1
  refine (shapeCast_apply _ shapeCasts_S50x2048_S50x4x512 (ix3 l p s) (ix2 l ⟨p.val * 512 + s.val, by omega⟩)
    (by rewrite [Shape.rowMajor_val_two, Shape.rowMajor_val_three]; show l.val * 2048 + (p.val * 512 + s.val) = (l.val * 4 + p.val) * 512 + s.val; omega)).trans ?_
  rw [addf_apply, product_apply, bias_apply]
  exact congrArg (· + x2 (ix2 0 l)) (Finset.sum_congr rfl fun k _ => by rw [flatten_apply x0 p s k _ rfl])

end Cert.Linear.Body

end
-- ==== Proof.Blocks.lean ====
/-
  From the blocks the kernel writes back to the whole array it leaves.
  The kernel's output array is laid out row-of-weights first: [50, 4, 8192]. Grid point t handles the positions
  q in [512·t, 512·t + 512) for all four p and writes the block (·, ·, 512·t + s). Every block is the restriction
  of ONE function of the whole argument arrays,
      out[l, p, q] = Σ_k w[l, k] · x[p, q, k] + b[0, l],
  and the sixteen blocks cover the array, so after the run the array is that function.
-/
import proofs.«136106_g46248207843626_cont_8to1_c_545_13_alg».proof.Proof.Gen.KernelIdeal.Frame
import proofs.«136106_g46248207843626_cont_8to1_c_545_13_alg».proof.Proof.BodyEntry
import Idealize.ShloMosaic.Lib.Pipeline.Value

noncomputable section

namespace Cert.Linear.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The weights-major array of logits: entry (l, p, q). -/
def rowsFirst (X : Vec Ideal S4x8192x2048 .f32) (W : Vec Ideal S50x2048 .f32) (B : Vec Ideal S1x50 .f32) : Vec Ideal S50x4x8192 .f32 :=
  fun j => (∑ k : Fin 2048, W (ix2 (j 0) k) * X (ix3 (j 1) (j 2) k)) + B (ix2 0 (j 0))

theorem rowsFirst_apply (X : Vec Ideal S4x8192x2048 .f32) (W : Vec Ideal S50x2048 .f32) (B : Vec Ideal S1x50 .f32)
    (l : Fin 50) (p : Fin 4) (q : Fin 8192) :
    rowsFirst X W B (ix3 l p q) = (∑ k : Fin 2048, W (ix2 l k) * X (ix3 p q k)) + B (ix2 0 l) := rfl

theorem off3 : (![0, 0, 0] : Fin 3 → Nat) = fun _ => 0 := funext fun a => by fin_cases a <;> rfl
theorem off2 : (![0, 0] : Fin 2 → Nat) = fun _ => 0 := funext fun a => by fin_cases a <;> rfl

/-- Where each window's block sits at grid point t: the activation's and the output's blocks move along the
    position axis with t, the weights and the bias are whole. -/
theorem block_index : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = t.val :=
  (by decide +kernel : ∀ t : Fin grid0.N, _)

/-- A block of the stored kind is the restriction of `rowsFirst`: if the activation block x0 holds the positions
    512·n + s of X, and the other two blocks are the whole W and B, then what the body stores at (l, p, s) is
    `rowsFirst` at (l, p, 512·n + s). -/
theorem stored_eq_rowsFirst (X : Vec Ideal S4x8192x2048 .f32) (W : Vec Ideal S50x2048 .f32) (B : Vec Ideal S1x50 .f32)
    (x0 : Vec Ideal S4x512x2048 .f32) (x1 : Vec Ideal S50x2048 .f32) (x2 : Vec Ideal S1x50 .f32) (n : Nat)
    (h0 : ∀ (p : Fin 4) (s : Fin 512) (k : Fin 2048) (q : Fin 8192), q.val = n * 512 + s.val → x0 (ix3 p s k) = X (ix3 p q k))
    (h1 : x1 = W) (h2 : x2 = B)
    (y : S50x4x512.Idx) (i : S50x4x8192.Idx) (e0 : (i 0).val = (y 0).val) (e1 : (i 1).val = (y 1).val)
    (e2 : (i 2).val = n * 512 + (y 2).val) :
    k0_pay1 x0 x1 x2 y = rowsFirst X W B i := by
  obtain ⟨l, p, s, rfl⟩ : ∃ (l : Fin 50) (p : Fin 4) (s : Fin 512), y = ix3 l p s := ⟨y 0, y 1, y 2, eq_ix3 y⟩
  obtain ⟨l', p', q, rfl⟩ : ∃ (l' : Fin 50) (p' : Fin 4) (q : Fin 8192), i = ix3 l' p' q := ⟨i 0, i 1, i 2, eq_ix3 i⟩
  obtain rfl : l' = l := Fin.ext e0
  obtain rfl : p' = p := Fin.ext e1
  subst h1 h2
  rw [Body.stored_apply, rowsFirst_apply]
  exact congrArg (· + x2 (ix2 0 l')) (Finset.sum_congr rfl fun k _ => by rw [h0 p' s k q e2])

/-! ## The input windows' blocks, read off the arrays as the region finds them -/

/-- The activation's block at point t holds the positions 512·t + s. -/
theorem xblock_apply (c : Dev nD) (t : Fin cfg0.N) (p : Fin 4) (s : Fin 512) (k : Fin 2048) (q : Fin 8192)
    (hq : q.val = t.val * 512 + s.val) :
    (iblk m c 0 t : Vec Ideal S4x512x2048 .f32) (ix3 p s k) = (V m c main_arg0 : Vec Ideal S4x8192x2048 .f32) (ix3 p q k) := by
  obtain ⟨e0, e1, e2, -⟩ := block_index t
  show V m c main_arg0 (((cfg0.win 0).blk t).view.emb (ix3 p s k)) = V m c main_arg0 (ix3 p q k)
  refine congrArg _ (funext fun a => Fin.ext ?_)
  match a with
  | ⟨0, _⟩ => show win0_0.index t (0 : Fin 3) * 4 + 1 * p.val = p.val; omega
  | ⟨1, _⟩ => show win0_0.index t (1 : Fin 3) * 512 + 1 * s.val = q.val; omega
  | ⟨2, _⟩ => show win0_0.index t (2 : Fin 3) * 2048 + 1 * k.val = k.val; omega

/-- The weights' block is the whole weight matrix at every point. -/
theorem wblock_eq (c : Dev nD) (t : Fin cfg0.N) :
    (iblk m c 1 t : Vec Ideal S50x2048 .f32) = (V m c main_arg1 : Vec Ideal S50x2048 .f32) := by
  obtain ⟨-, -, -, e0, e1, -⟩ := block_index t
  funext y
  show V m c main_arg1 (((cfg0.win 1).blk t).view.emb y) = V m c main_arg1 y
  refine congrArg _ (funext fun a => Fin.ext ?_)
  match a with
  | ⟨0, _⟩ => show win0_1.index t (0 : Fin 2) * 50 + 1 * (y 0).val = (y 0).val; omega
  | ⟨1, _⟩ => show win0_1.index t (1 : Fin 2) * 2048 + 1 * (y 1).val = (y 1).val; omega

/-- The bias' block is the whole [1, 50] bias row at every point. -/
theorem bblock_eq (c : Dev nD) (t : Fin cfg0.N) :
    (iblk m c 2 t : Vec Ideal S1x50 .f32) = (V m c main_v0 : Vec Ideal S1x50 .f32) := by
  obtain ⟨-, -, -, -, -, e0, e1, -⟩ := block_index t
  funext y
  show V m c main_v0 (((cfg0.win 2).blk t).view.emb y) = V m c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 50 + 1 * (y 1).val = (y 1).val; omega

/-! ## What a point writes back, the cover, and the array after the run -/

/-- What grid point t writes back is block t of `rowsFirst` of the arrays as the region finds them. -/
theorem flushed_eq (c : Dev nD) (t : Fin cfg0.N) :
    (dats m 0 c).flushed 3 t = ((cfg0.win 3).blk t).view.read (Elt Ideal) (rowsFirst (V m c main_arg0) (V m c main_arg1) (V m c main_v0)) := by
  show (cfg0.win 3).cut (grid0.coords t) ((dats m 0 c).after 3 t) = _
  rw [after0_3]
  unfold out0_3
  rw [View.canon_unit_zero off3]
  simp only [View.ld_unit_zero (S := S4x512x2048) off3, View.ld_unit_zero (S := S50x2048) off2, View.ld_unit_zero (S := S1x50) off2]
  obtain ⟨-, -, -, -, -, -, -, e0, e1, e2⟩ := block_index t
  funext j
  show k0_pay1 (iblk m c 0 t) (iblk m c 1 t) (iblk m c 2 t) j
    = rowsFirst (V m c main_arg0) (V m c main_arg1) (V m c main_v0) (((cfg0.win 3).blk t).view.emb j)
  refine stored_eq_rowsFirst (V m c main_arg0) (V m c main_arg1) (V m c main_v0) (iblk m c 0 t) (iblk m c 1 t) (iblk m c 2 t) t.val
    (fun p s k q hq => xblock_apply m c t p s k q hq) (wblock_eq m c t) (bblock_eq m c t) j (((cfg0.win 3).blk t).view.emb j) ?_ ?_ ?_
  · show win0_3.index t (0 : Fin 3) * 50 + 1 * (j 0).val = (j 0).val; omega
  · show win0_3.index t (1 : Fin 3) * 4 + 1 * (j 1).val = (j 1).val; omega
  · show win0_3.index t (2 : Fin 3) * 512 + 1 * (j 2).val = t.val * 512 + (j 2).val; omega

/-- An index of the output array is in point t's block iff each coordinate is in the block's range on its axis. -/
theorem mem_block (t : Fin cfg0.N) (i : S50x4x8192.Idx) :
    i ∈ ((cfg0.win 3).blk t).view.set ↔ ∀ a : Fin 3, win0_3.index t a * S50x4x512.size a ≤ (i a).val ∧ (i a).val < win0_3.index t a * S50x4x512.size a + S50x4x512.size a := by
  show i ∈ ((View.whole main_v1).slice (win0_3.rect t)).set ↔ _
  rw [View.set_slice_whole, Rect.mem_set_unit]
  exact Iff.rfl

/-- Every entry (l, p, q) is written by the point t = q / 512. -/
theorem covered (i : S50x4x8192.Idx) : ∃ t : Fin cfg0.N, (cfg0.win 3).flush t = true ∧ i ∈ ((cfg0.win 3).blk t).view.set := by
  have h0 : (i 0).val < 50 := (i 0).isLt
  have h1 : (i 1).val < 4 := (i 1).isLt
  have h2 : (i 2).val < 8192 := (i 2).isLt
  have hN : grid0.N = 16 := N_0
  obtain ⟨t, ht⟩ : ∃ t : Fin cfg0.N, t.val = (i 2).val / 512 := ⟨⟨(i 2).val / 512, by show (i 2).val / 512 < grid0.N; omega⟩, rfl⟩
  refine ⟨t, flush0_3 t, ?_⟩
  rw [mem_block]
  obtain ⟨-, -, -, -, -, -, -, e0, e1, e2⟩ := block_index t
  intro a
  match a with
  | ⟨0, _⟩ => show win0_3.index t (0 : Fin 3) * 50 ≤ (i 0).val ∧ (i 0).val < win0_3.index t (0 : Fin 3) * 50 + 50; omega
  | ⟨1, _⟩ => show win0_3.index t (1 : Fin 3) * 4 ≤ (i 1).val ∧ (i 1).val < win0_3.index t (1 : Fin 3) * 4 + 4; omega
  | ⟨2, _⟩ => show win0_3.index t (2 : Fin 3) * 512 ≤ (i 2).val ∧ (i 2).val < win0_3.index t (2 : Fin 3) * 512 + 512; omega

/-- The output array after the run is `rowsFirst` of the arrays as the region finds them. -/
theorem array_eq (c : Dev nD) :
    (dats m 0 c).arrAt 3 cfg0.N = rowsFirst (V m c main_arg0) (V m c main_arg1) (V m c main_v0) :=
  (dats m 0 c).arrAt_eq_of_cover 3 (rowsFirst (V m c main_arg0) (V m c main_arg1) (V m c main_v0)) (fun t _ => flushed_eq m c t) covered

end Cert.Linear.Blocks

end
-- ==== Proof.KernelLogits.lean ====
/-
  The kernel program computes the logits.
  Before the region the bias vector is reshaped to a [1, 50] row; the region leaves the weights-major array
  out[l, p, q] = Σ_k w[l, k] · x[p, q, k] + b[0, l]; after the region the program transposes it to
  [4, 8192, 50], so its result at (p, q, l) is out[l, p, q]. With the factors of each product exchanged this is the
  logit at (p, q, l).
-/
import proofs.«136106_g46248207843626_cont_8to1_c_545_13_alg».proof.Proof.Blocks
import proofs.«136106_g46248207843626_cont_8to1_c_545_13_alg».proof.Proof.Logits
import Idealize.ShloMosaic.Lib.StableHlo.Run

noncomputable section

namespace Cert.Linear.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Linear Cert.Linear.Blocks

variable (m : (ℓ : Loc nD τ sig) → Buf (Elt Ideal) ℓ) (ρ : Dev nD → PrngReg)

/-- The bias row the region finds: the bias vector reshaped to [1, 50]. -/
theorem bias_row (c : Dev nD) :
    (V m c main_v0 : Vec Ideal S1x50 .f32) = shapeCast S1x50 (m ((c : Thread nD τ).loc main_arg2)) shapeCasts_S50_S1x50 := by
  show StableHlo.after hostOps0 (fun b => m (c, b)) (Proc.devRef .tc main_v0) = _
  after_results
  rfl

/-- Entry (0, l) of the reshaped row is entry l of the vector. -/
theorem bias_row_apply (b : Vec Ideal S50 .f32) (l : Fin 50) :
    shapeCast S1x50 b shapeCasts_S50_S1x50 (ix2 0 l) = b (ix1 l) :=
  shapeCast_apply b shapeCasts_S50_S1x50 (ix2 0 l) (ix1 l)
    (by rewrite [Shape.rowMajor_val_one, Shape.rowMajor_val_two]; show l.val = 0 * 50 + l.val; omega)

/-- The program's result: the transposition, by the line after the region, of the array the region leaves. -/
theorem result_eq (c : Dev nD) :
    Pipeline.afterTail₀ cfgs (dats m) 0 (V0 m) [hostOps1] c main_v2
      = transpose S4x8192x50 [1, 2, 0] ((dats m 0 c).arrAt 3 cfg0.N) transposes_S50x4x8192_S4x8192x50_1_2_0 := by
  unfold Pipeline.afterTail₀
  show StableHlo.after hostOps1 _ (Proc.devRef .tc main_v2) = _
  after_results
  exact congrArg (fun a => transpose S4x8192x50 [1, 2, 0] a transposes_S50x4x8192_S4x8192x50_1_2_0)
    (Pipeline.withArrays_arr spec0 launch0.win.arr_inj c (V0 m c) (fun w => (dats m 0 c).arrAt w cfg0.N) 3)

/-- The transposed array is the array of logits of the program's three arguments. -/
theorem transposed_eq (c : Dev nD) :
    transpose S4x8192x50 [1, 2, 0] ((dats m 0 c).arrAt 3 cfg0.N) transposes_S50x4x8192_S4x8192x50_1_2_0
      = logits (m ((c : Thread nD τ).loc main_arg0)) (m ((c : Thread nD τ).loc main_arg1)) (m ((c : Thread nD τ).loc main_arg2)) := by
  rw [array_eq]
  funext i
  obtain ⟨p, q, l, rfl⟩ : ∃ (p : Fin 4) (q : Fin 8192) (l : Fin 50), i = ix3 p q l := ⟨i 0, i 1, i 2, eq_ix3 i⟩
  refine (transpose_apply [1, 2, 0] _ transposes_S50x4x8192_S4x8192x50_1_2_0 (ix3 p q l) (ix3 l p q) (fun b => match b with
    | ⟨0, _⟩ => rfl
    | ⟨1, _⟩ => rfl
    | ⟨2, _⟩ => rfl)).trans ?_
  rw [rowsFirst_apply, bias_row, bias_row_apply, logits_apply, ← logit_comm, V_main_arg0, V_main_arg1]

/-- THE KERNEL PROGRAM'S RUN with its result named: it ends with the logits of its arguments in its result buffer and
    the three arguments unchanged. -/
theorem run : θ_run defs (onTc (τ := τ) (main (F := Ideal))) ⟨m, fun _ => 0, ρ⟩ fun r => ∀ c : Dev nD,
      r.2.mem ((c.tc : Thread nD τ).loc main_v2)
        = logits (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨(((h c).2 main_v2 (Pipeline.mem_restRefs_of main_v2 (by decide) (by decide))).trans (result_eq m c)).trans (transposed_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.Linear.Kernel

end
-- ==== Proof.lean ====
/-
  A linear layer with bias, applied to every position of a [4, 8192, 2048] activation:
      logits[p, q, l] = Σ_k x[p, q, k] · w[l, k] + b[l]          (w : [50, 2048], b : [50]).

  The reference flattens the positions, multiplies by the transposed weights, adds the bias and unflattens.
  The kernel walks the 8192 positions q in sixteen blocks of 512; in each it contracts the weights (on the left)
  against the block's 4 · 512 feature vectors, adds the bias to every column, and writes a block of a
  weights-major [50, 4, 8192] array, which the program transposes to [4, 8192, 50] at the end.

  Over the extended reals the two results agree entry by entry: both are the same finite sum of products plus the
  same bias, the kernel with the factors of each product in the other order. Only commutativity of the product is
  used, so the finiteness of the inputs is never needed.

  The modules: Logits (the function), RefLogits (the reference's result is that function), BodyEntry (one entry of
  the block a grid point stores), Blocks (the sixteen blocks are restrictions of one whole-array function and cover the
  array), KernelLogits (the line before the region, the transposition after it, and the kernel program's run with its
  result named).
-/
import proofs.«136106_g46248207843626_cont_8to1_c_545_13_alg».proof.Defs
import proofs.«136106_g46248207843626_cont_8to1_c_545_13_alg».proof.Proof.Gen.Kernel
import proofs.«136106_g46248207843626_cont_8to1_c_545_13_alg».proof.Proof.Gen.Kernel.Skeleton
import proofs.«136106_g46248207843626_cont_8to1_c_545_13_alg».proof.Proof.Gen.Kernel.Launch
import proofs.«136106_g46248207843626_cont_8to1_c_545_13_alg».proof.Proof.Gen.Kernel.Points
import proofs.«136106_g46248207843626_cont_8to1_c_545_13_alg».proof.Proof.Gen.Kernel.Frame
import proofs.«136106_g46248207843626_cont_8to1_c_545_13_alg».proof.Proof.Gen.KernelIdeal
import proofs.«136106_g46248207843626_cont_8to1_c_545_13_alg».proof.Proof.Gen.KernelIdeal.Skeleton
import proofs.«136106_g46248207843626_cont_8to1_c_545_13_alg».proof.Proof.Gen.KernelIdeal.Launch
import proofs.«136106_g46248207843626_cont_8to1_c_545_13_alg».proof.Proof.Gen.KernelIdeal.Points
import proofs.«136106_g46248207843626_cont_8to1_c_545_13_alg».proof.Proof.Gen.KernelIdeal.Frame
import proofs.«136106_g46248207843626_cont_8to1_c_545_13_alg».proof.Proof.Gen.ReferenceIdeal
import proofs.«136106_g46248207843626_cont_8to1_c_545_13_alg».proof.Proof.Gen.Pre_finite_inputs
import proofs.«136106_g46248207843626_cont_8to1_c_545_13_alg».proof.Proof.Gen.ReferenceIdeal.Run
import proofs.«136106_g46248207843626_cont_8to1_c_545_13_alg».proof.Proof.Gen.ReferenceIdeal.Read
import Idealize.ShloMosaic.Adequacy
import Idealize.ShloMosaic.Init

import proofs.«136106_g46248207843626_cont_8to1_c_545_13_alg».proof.Proof.Logits
import proofs.«136106_g46248207843626_cont_8to1_c_545_13_alg».proof.Proof.RefLogits
import proofs.«136106_g46248207843626_cont_8to1_c_545_13_alg».proof.Proof.KernelLogits

noncomputable section

namespace Cert.Proof

open Idealize.ShloMosaic Idealize.SL.Sem

/-- The three programs run and keep their arguments; the idealization rewrote nothing; and the two idealized programs,
    from memories that agree on the arguments, both end with the array of logits of those arguments. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => Cert.Linear.logits (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      Cert.Linear.Kernel.run m ρ,
      (θ_run Cert.ReferenceIdeal.defs _ _).mono (fun _ h c =>
          ⟨by rw [(h c).1, Cert.ReferenceIdeal.Read.val_main_v6_eq, Cert.Linear.Ref.result_eq, (hagree c).1, (hagree c).2.1, (hagree c).2.2],
            (h c).2⟩)
        (Cert.ReferenceIdeal.Value.run (F := Ideal) m' ρ')⟩⟩

end Cert.Proof

end
